-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 71
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x64, .f32⟩
  | .hbm, ⟨54, _⟩ => ⟨S850000x1, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x64, .f32⟩
  | .hbm, ⟨54, _⟩ => ⟨S850000x1, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x64, .f32⟩
  | .hbm, ⟨65, _⟩ => ⟨S850000x64, .f32⟩
  | .hbm, ⟨66, _⟩ => ⟨S_, .f32⟩
  | .hbm, ⟨67, _⟩ => ⟨S50000x64, .f32⟩
  | .hbm, ⟨68, _⟩ => ⟨S850000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000, .f32⟩
  | .hbm, ⟨76, _⟩ => ⟨S50000x1, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000, .f32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x1, .f32⟩
  | .hbm, ⟨93, _⟩ => ⟨S50000x1, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S50000x64, .f32⟩
  | .hbm, ⟨103, _⟩ => ⟨S_, .f32⟩
  | .hbm, ⟨104, _⟩ => ⟨S50000x64, .f32⟩
  | .hbm, ⟨105, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The mathematics both programs compute, stated once over the extended reals and over literal shapes.

  A graph-convolution layer with a residual connection, LayerNorm and ReLU.  With `x : [n, 64]` the node features,
  `w : [64, 64]` the weight, `z : [n, 64]` the aggregated messages, and `b, g, be : [64]` the bias and the affine
  parameters of the normalisation:

  * `matProd x w` is the dense product, `(x w)[r, j] = ∑ k, x[r, k] · w[k, j]`;
  * `normRelu h g be` maps one row `h` of 64 numbers to `max (((h - μ) · rsqrt (σ² + ε)) · g + be) 0`, where
    `μ = (∑ h) / 64` and `σ² = (∑ (h - μ)²) / 64`;
  * `skipNormL` applies `normRelu` to the rows of `(x + z) + b`, `skipNormR` to the rows of `x + (z + b)`.
    Addition of extended reals is associative, so the two are one function (`skipNormL_eq_skipNormR`).
-/
import Idealize.ShloMosaic.PureOps.Ideal
import Idealize.ShloMosaic.PureOps.Ideal.Laws
import Idealize.ShloMosaic.Lib.ValueIdx

noncomputable section

namespace Cert.GcnNorm

open Idealize.ShloMosaic Idealize.ShloMosaic.ValueIdx

/-- A matrix of extended reals, indexed by a rank-2 shape's indices. -/
abbrev Mat (r c : Nat) : Type := (⟨2, ![r, c]⟩ : Shape).Idx → EReal
/-- A vector of extended reals, indexed by a rank-1 shape's indices. -/
abbrev Row (n : Nat) : Type := (⟨1, ![n]⟩ : Shape).Idx → EReal

/-- The mean of 64 numbers: their sum divided by the float 64. -/
def mean64 (h : Fin 64 → EReal) : EReal :=
  Ideal.div (∑ k : Fin 64, h k) (Ideal.ofBits .f32 0x42800000#32)

/-- LayerNorm with affine parameters `g`, `be` followed by ReLU, on one row of 64 numbers, at column `j`. -/
def normRelu (h g be : Fin 64 → EReal) (j : Fin 64) : EReal :=
  max ((h j - mean64 h)
        * Ideal.rsqrt (mean64 (fun k => (h k - mean64 h) * (h k - mean64 h)) + Ideal.ofBits .f32 0x3727C5AC#32)
        * g j + be j)
      (Ideal.ofBits .f32 0x00000000#32)

/-- The dense product of an `[n, 64]` matrix with a `[64, 64]` matrix. -/
def matProd {n : Nat} (x : Mat n 64) (w : Mat 64 64) : Mat n 64 :=
  fun i => ∑ k : Fin 64, x (ix2 (i 0) k) * w (ix2 k (i 1))

/-- Residual, bias, LayerNorm, ReLU with the row formed as `(x + z) + b`. -/
def skipNormL {n : Nat} (x z : Mat n 64) (b g be : Row 64) : Mat n 64 :=
  fun i => normRelu (fun k => x (ix2 (i 0) k) + z (ix2 (i 0) k) + b (ix1 k)) (fun k => g (ix1 k)) (fun k => be (ix1 k)) (i 1)

/-- Residual, bias, LayerNorm, ReLU with the row formed as `x + (z + b)`. -/
def skipNormR {n : Nat} (x z : Mat n 64) (b g be : Row 64) : Mat n 64 :=
  fun i => normRelu (fun k => x (ix2 (i 0) k) + (z (ix2 (i 0) k) + b (ix1 k))) (fun k => g (ix1 k)) (fun k => be (ix1 k)) (i 1)

/-- Addition of extended reals is associative, so the two row forms give one function. -/
theorem skipNormL_eq_skipNormR {n : Nat} (x z : Mat n 64) (b g be : Row 64) :
    skipNormL x z b g be = skipNormR x z b g be := by
  funext i
  unfold skipNormL skipNormR
  congr 1
  funext k
  exact add_assoc _ _ _

end Cert.GcnNorm

end
-- ==== Proof.Region0.lean ====
/-
  Region 0, the matrix-product kernel: the product array after the region is the dense product of the two
  arrays the region found.

  The kernel walks the [50000, 64] array `x` in ten blocks of 5000 rows. At each block it loads the block and
  the whole [64, 64] weight `w`, contracts them into a zero accumulator and stores the [5000, 64] result as the
  block of the product array. Over the extended reals a change of float format is the identity and the
  accumulator adds nothing, so the stored value at row `p`, column `q` of block `t` is
  `∑ k, x[5000 t + p, k] · w[k, q]` (`pay_apply`, `flushed_eq`); the ten blocks tile the array (`cover`); so the
  array ends holding `(x w)[r, j] = ∑ k, x[r, k] · w[k, j]` (`final0`).
-/
import proofs.«156354_j35347580846828_1_alg».proof.Defs
import proofs.«156354_j35347580846828_1_alg».proof.Proof.Gen.KernelIdeal.Frame
import proofs.«156354_j35347580846828_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/- The buffer contents when the region is entered: a parameter. -/
variable (V : (c : Dev nD) → (b : Ref sig .tc) → Buf (Elt Ideal) ((c : Thread nD τ).loc b))

/-! ## The contraction's index maps, axis by axis -/

/-- The left operand is read at the output's row … -/
theorem lhs_dot_0 (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted column; -/
theorem lhs_dot_1 (i : S5000x64.Idx) (r : dot_S5000x64_S64x64_S5000x64_1_0_0_1_n_n.contr.Idx) :
    (dot_S5000x64_S64x64_S5000x64_1_0_0_1_n_n.lhsIdx i r 1).val = (r ⟨0, by decide⟩).val :=
  dot_S5000x64_S64x64_S5000x64_1_0_0_1_n_n.lhsIdx_val_of_single rfl i r
/-- the right operand at the contracted row … -/
theorem rhs_dot_0 (i : S5000x64.Idx) (r : dot_S5000x64_S64x64_S5000x64_1_0_0_1_n_n.contr.Idx) :
    (dot_S5000x64_S64x64_S5000x64_1_0_0_1_n_n.rhsIdx i r 0).val = (r ⟨0, by decide⟩).val :=
  dot_S5000x64_S64x64_S5000x64_1_0_0_1_n_n.rhsIdx_val_of_single rfl i r
/-- … and the output's column. -/
theorem rhs_dot_1 (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's stored value at an index -/

/-- The body's one stored value at row `p`, column `q` of the block: the contraction of row `p` of the loaded
    block of `x` with column `q` of the weight (a change of float format is the identity on extended reals, and
    the accumulator is zero). -/
theorem pay_apply (x : Vec Ideal S5000x64 .f32) (w : Vec Ideal S64x64 .f32) (p : Fin 5000) (q : Fin 64) :
    k0_pay1 (F := Ideal) x w (ix2 p q) = ∑ k : Fin 64, x (ix2 p k) * w (ix2 k q) := by
  unfold k0_pay1
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er, truncf_apply, truncf_apply]

/-! ## The blocks, read at an index -/

theorem hz : (![0, 0] : Fin 2 → Nat) = fun _ => 0 := funext fun a => by fin_cases a <;> rfl

/-- The printed index maps, decided over the grid: at point `t` the block of `x` and the block of the product are
    block `t` of the rows and the one block of columns; the weight's block is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` is row `5000 t + p` of the array. -/
def rowOf (t : Fin cfg0.N) (p : Fin 5000) : Fin 50000 :=
  ⟨t.val * 5000 + p.val, by have h : t.val < 10 := lt_of_lt_of_eq t.isLt N_0; have := p.isLt; omega⟩

/-- The block of `x` at point `t`, at row `p` and column `k`, is `x` at row `5000 t + p`, column `k`. -/
theorem iblk0_0_apply (c : Dev nD) (t : Fin cfg0.N) (p : Fin 5000) (k : Fin 64) :
    (iblk0 V c 0 t : Vec Ideal S5000x64 .f32) (ix2 p k) = (V c main_arg0 : S50000x64.Idx → EReal) (ix2 (rowOf t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The block of the weight at every point is the weight. -/
theorem iblk0_1_apply (c : Dev nD) (t : Fin cfg0.N) (k : Fin 64) (q : Fin 64) :
    (iblk0 V c 1 t : Vec Ideal S64x64 .f32) (ix2 k q) = (V c main_arg2 : S64x64.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Row `p`, column `q` of the product's block at point `t` sits in the array at row `5000 t + p`, column `q`. -/
theorem emb_out (t : Fin cfg0.N) (p : Fin 5000) (q : Fin 64) :
    (((cfg0.win 2).blk t).view.emb (ix2 p q) : S50000x64.Idx) = ix2 (rowOf t p) q := by
  obtain ⟨-, -, -, -, e4, e5⟩ := idx_facts t
  funext a
  apply Fin.ext
  match a with
  | ⟨0, _⟩ => show win0_2.index t (0 : Fin 2) * 5000 + 1 * p.val = t.val * 5000 + p.val; rw [e4]; omega
  | ⟨1, _⟩ => show win0_2.index t (1 : Fin 2) * 64 + 1 * q.val = q.val; rw [e5]; omega

/-! ## What a point writes back -/

/-- The dense product at row `r`, column `q`. -/
theorem matProd_apply (x : Cert.GcnNorm.Mat 50000 64) (w : Cert.GcnNorm.Mat 64 64) (r : Fin 50000) (q : Fin 64) :
    Cert.GcnNorm.matProd x w (ix2 r q) = ∑ k : Fin 64, x (ix2 r k) * w (ix2 k q) := rfl

/-- What point `t` writes back is block `t` of the dense product of the arrays the region found. -/
theorem flushed_eq (c : Dev nD) (t : Fin cfg0.N) :
    (dat0 (F := Ideal) V c).flushed 2 t = ((cfg0.win 2).blk t).view.read (Elt Ideal)
      (Cert.GcnNorm.matProd (V c main_arg0 : S50000x64.Idx → EReal) (V c main_arg2 : S64x64.Idx → EReal)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = Cert.GcnNorm.matProd (V c main_arg0 : S50000x64.Idx → EReal) (V c main_arg2 : S64x64.Idx → EReal) (((cfg0.win 2).blk t).view.emb (ix2 p q))
  rw [pay_apply, emb_out, matProd_apply]
  refine Finset.sum_congr rfl fun k _ => ?_
  rw [iblk0_0_apply, iblk0_1_apply]

/-! ## The blocks tile the array -/

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Row `r` of the array is in the block of point `r / 5000`, and every point writes its block back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-! ## The array after the region -/

/-- After the region the product array holds the dense product of the two arrays the region found. -/
theorem final0 (c : Dev nD) :
    (dat0 (F := Ideal) V c).arrAt 2 cfg0.N
      = Cert.GcnNorm.matProd (V c main_arg0 : S50000x64.Idx → EReal) (V c main_arg2 : S64x64.Idx → EReal) :=
  (dat0 (F := Ideal) V c).arrAt_eq_of_cover 2
    (Cert.GcnNorm.matProd (V c main_arg0 : S50000x64.Idx → EReal) (V c main_arg2 : S64x64.Idx → EReal))
    (fun t _ => flushed_eq V c t) cover

end Cert.KernelIdeal.Region0

end
-- ==== Proof.LibColumn.lean ====
/-
  Two layout operations read at an index, for a column of per-row values ("keepdims"): a vector of `a` numbers cast
  to an `[a, 1]` column, and an `[a, 1]` column repeated across `b` columns.  A row-wise reduction (a mean, a
  variance, a norm) meets both: the reduced vector becomes a column, and the column is broadcast back over the row.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Region1.lean ====
/-
  Region 1: the residual + bias + LayerNorm + ReLU kernel, read as mathematics.

  The kernel body stores ONE value per block of 5000 rows: with `x`, `z` the block's rows of the node features and
  of the aggregated messages and `b`, `g`, `be` the bias and the affine parameters, row `p` of what it stores is
  `normRelu` of the 64 numbers `x[p, k] + z[p, k] + b[k]` (`pay_apply`): the row's mean is a lane sum divided by 64, the
  variance the lane sum of the squared deviations divided by 64, and the result
  `max ((h - μ) · rsqrt (σ² + ε) · g + be) 0`. The layout operations in between (a vector seen as one row and repeated
  down the block, a column of row statistics repeated across the lanes) only move numbers.

  The ten blocks of 5000 rows tile the [50000, 64] array, block `t` holding rows `5000 t … 5000 t + 4999`; the row
  blocks of `x` and `z` move with the output's, and `b`, `g`, `be` are read whole at every point. So what point `t`
  writes back is block `t` of `skipNormL` of the arrays the region found (`flushed_eq`), every row is in the block of
  point `row / 5000` (`cover`), and the result array ends holding `skipNormL` of them (`final1`).
-/
import proofs.«156354_j35347580846828_1_alg».proof.Defs
import proofs.«156354_j35347580846828_1_alg».proof.Proof.Gen.KernelIdeal.Frame
import proofs.«156354_j35347580846828_1_alg».proof.Proof.Spec
import proofs.«156354_j35347580846828_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

/-! ## Layout operations of the body read at an index

    The two column forms (a vector as a column; a column repeated across the row) are read by `Cert.LibColumn`'s lemmas. -/

open Cert.LibColumn

/-! ## The body's stored value read at an index

The stored value is cut into the pieces the mathematics names — the row `(x + z) + b`, a column of row means, the
centred block, the column of inverse standard deviations — each a definition over a VARIABLE block and each read at
an index by a small lemma; the stored value is the composition of the pieces by unfolding. -/

section Payload

open Cert.GcnNorm (mean64 normRelu)

/-- A lane sum of a `[5000, 64]` block at row `p` is the sum of the row's 64 entries. -/
theorem laneSum_apply (v : FVec Ideal S5000x64 .f32) (p : Fin 5000) :
    multiReduction (F := Ideal) .add [1] S5000 v 0x00000000#32 reduces_S5000x64_S5000 (.inl rfl) rfl (ix1 p)
      = ∑ k : Fin 64, v (ix2 p k) := by
  refine (Ideal.multiReduction_add_single v 0x00000000#32 reduces_S5000x64_S5000 (.inl rfl) rfl (ix1 p)).trans ?_
  refine Finset.sum_congr rfl fun k _ => congrArg v ?_
  funext a
  match a with
  | ⟨0, _⟩ => rfl
  | ⟨1, _⟩ => rfl

/-- A `[64]` vector seen as one row and repeated down the block reads, at `(p, k)`, the vector at `k`. -/
theorem vecRow_apply (g : Vec Ideal S64 .f32) (p : Fin 5000) (k : Fin 64) :
    broadcastTo S5000x64 (shapeCast S1x64 g shapeCasts_S64_S1x64) broadcasts_S1x64_S5000x64 (ix2 p k) = g (ix1 k) := by
  rw [broadcastTo_1b_ab_apply, shapeCast_a_1a_apply]

/-- The row `(x + z) + b` as the body forms it. -/
def rowOf (x z : Vec Ideal S5000x64 .f32) (b : Vec Ideal S64 .f32) : FVec Ideal S5000x64 .f32 :=
  addf (addf x (shapeCast S5000x64 z shapeCasts_S5000x64_S5000x64))
    (broadcastTo S5000x64 (shapeCast S1x64 b shapeCasts_S64_S1x64) broadcasts_S1x64_S5000x64)

theorem rowOf_apply (x z : Vec Ideal S5000x64 .f32) (b : Vec Ideal S64 .f32) (p : Fin 5000) (k : Fin 64) :
    rowOf x z b (ix2 p k) = x (ix2 p k) + z (ix2 p k) + b (ix1 k) := by
  unfold rowOf
  rw [addf_apply, addf_apply, shapeCast_self, vecRow_apply]

/-- The column of row means as the body computes it: the lane sums as a column, divided by the float 64. -/
def meanCol (v : FVec Ideal S5000x64 .f32) : FVec Ideal S5000x1 .f32 :=
  divf (shapeCast S5000x1
      (multiReduction (F := Ideal) .add [1] S5000 v 0x00000000#32 reduces_S5000x64_S5000 (.inl rfl) rfl)
      shapeCasts_S5000_S5000x1)
    (broadcast S5000x1 (Scalar.ofBits (F := Ideal) .f32 0x42800000#32))

theorem meanCol_apply (v : FVec Ideal S5000x64 .f32) (p : Fin 5000) (u : Fin 1) :
    meanCol v (ix2 p u) = mean64 (fun k => v (ix2 p k)) := by
  unfold meanCol mean64
  rw [divf_apply, broadcast_apply, shapeCast_a_a1_apply, laneSum_apply]
  rfl

/-- The block with each row's mean taken off. -/
def centered (v : FVec Ideal S5000x64 .f32) : FVec Ideal S5000x64 .f32 :=
  subf v (broadcastTo S5000x64 (meanCol v) broadcasts_S5000x1_S5000x64)

theorem centered_apply (v : FVec Ideal S5000x64 .f32) (p : Fin 5000) (k : Fin 64) :
    centered v (ix2 p k) = v (ix2 p k) - mean64 (fun k => v (ix2 p k)) := by
  unfold centered
  rw [subf_apply, broadcastTo_a1_ab_apply, meanCol_apply]

/-- The column of inverse standard deviations: `rsqrt` of the mean squared deviation plus ε. -/
def invStd (v : FVec Ideal S5000x64 .f32) : FVec Ideal S5000x1 .f32 :=
  rsqrt (addf (meanCol (mulf (centered v) (centered v)))
    (broadcast S5000x1 (Scalar.ofBits (F := Ideal) .f32 0x3727C5AC#32)))

theorem invStd_apply (v : FVec Ideal S5000x64 .f32) (p : Fin 5000) (u : Fin 1) :
    invStd v (ix2 p u)
      = Ideal.rsqrt (mean64 (fun k => (v (ix2 p k) - mean64 (fun k => v (ix2 p k))) * (v (ix2 p k) - mean64 (fun k => v (ix2 p k))))
          + Ideal.ofBits .f32 0x3727C5AC#32) := by
  unfold invStd
  show Ideal.rsqrt (addf (meanCol (mulf (centered v) (centered v))) (broadcast S5000x1 (Scalar.ofBits (F := Ideal) .f32 0x3727C5AC#32)) (ix2 p u)) = _
  rw [addf_apply, broadcast_apply, meanCol_apply]
  simp only [mulf_apply, centered_apply]
  rfl

/-- The stored value is the composition of those pieces (by unfolding). -/
theorem pay_eq (x z : Vec Ideal S5000x64 .f32) (b g be : Vec Ideal S64 .f32) :
    k1_pay1 (F := Ideal) x z b g be
      = maximumf
          (addf
            (mulf (mulf (centered (rowOf x z b)) (broadcastTo S5000x64 (invStd (rowOf x z b)) broadcasts_S5000x1_S5000x64))
              (broadcastTo S5000x64 (shapeCast S1x64 g shapeCasts_S64_S1x64) broadcasts_S1x64_S5000x64))
            (broadcastTo S5000x64 (shapeCast S1x64 be shapeCasts_S64_S1x64) broadcasts_S1x64_S5000x64))
          (broadcast S5000x64 (Scalar.ofBits (F := Ideal) .f32 0x00000000#32)) := rfl

end Payload

/- The buffer contents when the region is entered: a parameter. -/
variable (V : (c : Dev nD) → (b : Ref sig .tc) → Buf (Elt Ideal) ((c : Thread nD τ).loc b))

/-- The body's one stored value at row `p`, column `q` of the block: LayerNorm and ReLU of row `p` of
    `(x + z) + b`, with the affine parameters `g`, `be`. -/
theorem pay_apply (x z : Vec Ideal S5000x64 .f32) (b g be : Vec Ideal S64 .f32) (p : Fin 5000) (q : Fin 64) :
    k1_pay1 (F := Ideal) x z b g be (ix2 p q)
      = Cert.GcnNorm.normRelu (fun k => x (ix2 p k) + z (ix2 p k) + b (ix1 k)) (fun k => g (ix1 k)) (fun k => be (ix1 k)) q := by
  rw [pay_eq, maximumf_apply, addf_apply, mulf_apply, mulf_apply, centered_apply, broadcastTo_a1_ab_apply, invStd_apply,
    vecRow_apply, vecRow_apply, broadcast_apply]
  unfold Cert.GcnNorm.normRelu
  simp only [rowOf_apply]
  rfl

/-! ## From blocks to the array -/

section Blocks

open Cert.GcnNorm (skipNormL normRelu)

theorem zeros2 : (![0, 0] : Fin 2 → Nat) = fun _ => 0 :=
  funext fun a => match a with | ⟨0, _⟩ => rfl | ⟨1, _⟩ => rfl
theorem zeros1 : (![0] : Fin 1 → Nat) = fun _ => 0 :=
  funext fun a => match a with | ⟨0, _⟩ => rfl

/-- The printed index maps, decided once over the grid: at point `t` the row blocks of `x`, `z` and of the result are
    block `(t, 0)`, and `b`, `g`, `be` are block `0`, the whole vector. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- Row `p` of block `t` is row `5000 t + p` of the array. -/
def rowAt (t : Fin cfg1.N) (p : Fin 5000) : Fin 50000 :=
  ⟨t.val * 5000 + p.val, by
    have ht : t.val < grid1.N := t.isLt
    rw [N_1] at ht
    have hp := p.isLt
    omega⟩

/-- `x`'s block at point `t` is rows `5000 t … 5000 t + 4999` of the node features. -/
theorem blk_x (c : Dev nD) (t : Fin cfg1.N) (p : Fin 5000) (k : Fin 64) :
    (iblk1 V c 0 t : Vec Ideal S5000x64 .f32) (ix2 p k) = (V c main_arg0 : S50000x64.Idx → EReal) (ix2 (rowAt t p) k) := by
  obtain ⟨e0, e1, -⟩ := idx_facts t
  unfold iblk1
  rw [View.read_apply]
  show (V c main_arg0 : S50000x64.Idx → EReal) _ = (V c main_arg0 : S50000x64.Idx → EReal) _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

/-- `z`'s block at point `t` is the same rows of the aggregated messages. -/
theorem blk_z (c : Dev nD) (t : Fin cfg1.N) (p : Fin 5000) (k : Fin 64) :
    (iblk1 V c 1 t : Vec Ideal S5000x64 .f32) (ix2 p k) = (V c main_v46 : S50000x64.Idx → EReal) (ix2 (rowAt t p) k) := by
  obtain ⟨-, -, e0, e1, -⟩ := idx_facts t
  unfold iblk1
  rw [View.read_apply]
  show (V c main_v46 : S50000x64.Idx → EReal) _ = (V c main_v46 : S50000x64.Idx → EReal) _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

/-- The bias is read whole at every point. -/
theorem blk_b (c : Dev nD) (t : Fin cfg1.N) (k : Fin 64) :
    (iblk1 V c 2 t : Vec Ideal S64 .f32) (ix1 k) = (V c main_arg3 : S64.Idx → EReal) (ix1 k) := by
  obtain ⟨-, -, -, -, e0, -⟩ := idx_facts t
  unfold iblk1
  rw [View.read_apply]
  show (V c main_arg3 : S64.Idx → EReal) _ = (V c main_arg3 : S64.Idx → EReal) _
  congr 1
  funext a
  apply Fin.ext
  match a with
  | ⟨0, _⟩ => show win1_2.index t (0 : Fin 1) * 64 + 1 * k.val = k.val; rw [e0]; omega

/-- The scale of the normalisation is read whole at every point. -/
theorem blk_g (c : Dev nD) (t : Fin cfg1.N) (k : Fin 64) :
    (iblk1 V c 3 t : Vec Ideal S64 .f32) (ix1 k) = (V c main_arg4 : S64.Idx → EReal) (ix1 k) := by
  obtain ⟨-, -, -, -, -, e0, -⟩ := idx_facts t
  unfold iblk1
  rw [View.read_apply]
  show (V c main_arg4 : S64.Idx → EReal) _ = (V c main_arg4 : S64.Idx → EReal) _
  congr 1
  funext a
  apply Fin.ext
  match a with
  | ⟨0, _⟩ => show win1_3.index t (0 : Fin 1) * 64 + 1 * k.val = k.val; rw [e0]; omega

/-- The shift of the normalisation is read whole at every point. -/
theorem blk_be (c : Dev nD) (t : Fin cfg1.N) (k : Fin 64) :
    (iblk1 V c 4 t : Vec Ideal S64 .f32) (ix1 k) = (V c main_arg5 : S64.Idx → EReal) (ix1 k) := by
  obtain ⟨-, -, -, -, -, -, e0, -⟩ := idx_facts t
  unfold iblk1
  rw [View.read_apply]
  show (V c main_arg5 : S64.Idx → EReal) _ = (V c main_arg5 : S64.Idx → EReal) _
  congr 1
  funext a
  apply Fin.ext
  match a with
  | ⟨0, _⟩ => show win1_4.index t (0 : Fin 1) * 64 + 1 * k.val = k.val; rw [e0]; omega

/-- Entry `(p, q)` of the result's block at point `t` sits at row `5000 t + p`, column `q` of the array. -/
theorem emb_out (t : Fin cfg1.N) (p : Fin 5000) (q : Fin 64) :
    ((cfg1.win 5).blk t).view.emb (ix2 p q) = (ix2 (rowAt t p) q : S50000x64.Idx) := by
  obtain ⟨-, -, -, -, -, -, -, e0, e1⟩ := idx_facts t
  funext a
  apply Fin.ext
  match a with
  | ⟨0, _⟩ => show win1_5.index t (0 : Fin 2) * 5000 + 1 * p.val = t.val * 5000 + p.val; rw [e0]; omega
  | ⟨1, _⟩ => show win1_5.index t (1 : Fin 2) * 64 + 1 * q.val = q.val; rw [e1]; omega

/-- WHAT POINT `t` WRITES BACK is block `t` of `skipNormL` of the arrays the region found. -/
theorem flushed_eq (c : Dev nD) (t : Fin cfg1.N) :
    (dat1 (F := Ideal) V c).flushed 5 t = ((cfg1.win 5).blk t).view.read (Elt Ideal)
      (skipNormL (V c main_arg0 : S50000x64.Idx → EReal) (V c main_v46 : S50000x64.Idx → EReal)
        (V c main_arg3 : S64.Idx → EReal) (V c main_arg4 : S64.Idx → EReal) (V c main_arg5 : S64.Idx → EReal)) := by
  show (cfg1.win 5).cut (grid1.coords t) ((dat1 V c).after 5 t) = _
  rw [after1_5]
  unfold out1_5
  rw [View.canon_unit_zero zeros2]
  simp only [View.ld_unit_zero (S := S5000x64) zeros2, View.ld_unit_zero (S := S64) zeros1]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = skipNormL (V c main_arg0 : S50000x64.Idx → EReal) (V c main_v46 : S50000x64.Idx → EReal)
        (V c main_arg3 : S64.Idx → EReal) (V c main_arg4 : S64.Idx → EReal) (V c main_arg5 : S64.Idx → EReal)
        (((cfg1.win 5).blk t).view.emb (ix2 p q))
  rw [pay_apply, emb_out]
  simp only [blk_x, blk_z, blk_b, blk_g, blk_be]
  rfl

/-- An index of the array is in point `t`'s block iff each coordinate is in the block's range on its axis. -/
theorem mem_blk (t : Fin cfg1.N) (i : S50000x64.Idx) :
    i ∈ ((cfg1.win 5).blk t).view.set
      ↔ ∀ a : Fin 2, win1_5.index t a * S5000x64.size a ≤ (i a).val
          ∧ (i a).val < win1_5.index t a * S5000x64.size a + S5000x64.size a := by
  show i ∈ ((View.whole main_v47).slice (win1_5.rect t)).set ↔ _
  rw [View.set_slice_whole, Rect.mem_set_unit]
  exact Iff.rfl

/-- The ten blocks tile the array: row `r` is in the block of point `r / 5000`, and every point writes back. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

end Blocks

/-- After the region the result array holds residual + bias + LayerNorm + ReLU of the arrays the region found. -/
theorem final1 (c : Dev nD) :
    (dat1 (F := Ideal) V c).arrAt 5 cfg1.N
      = Cert.GcnNorm.skipNormL (V c main_arg0 : S50000x64.Idx → EReal) (V c main_v46 : S50000x64.Idx → EReal)
          (V c main_arg3 : S64.Idx → EReal) (V c main_arg4 : S64.Idx → EReal) (V c main_arg5 : S64.Idx → EReal) := by
  exact (dat1 (F := Ideal) V c).arrAt_eq_of_cover 5 _ (fun t _ => flushed_eq V c t) cover

end Cert.KernelIdeal.Region1

end
-- ==== Proof.HostChain.lean ====
/-
  The host stretches of the kernel program, read as values.

  Between its two kernel regions the program gathers rows of the product `xw`, scales row `e` by the edge weight
  `norm e` and adds it into row `dst e` of a zero array: the aggregated messages `z`.  The edge weights and the two
  index arrays depend on the integer edge list only; they are computed before the first region and no region writes
  them.  The reference applies the same operations, so the aggregation is named once, `agg edges xw`, as a function
  of the edge list and of the product, over the reference's stages; the scatter-add and the gathers are never opened.

  * `V5_arg0`, `V5_arg2`: the first region finds `x` and the weight as launched.
  * `V7_arg0`, `V7_arg3`, `V7_arg4`, `V7_arg5`: the second region finds `x`, the bias and the affine parameters as launched.
  * `V7_v46`: the second region finds, as its second operand, `agg` of the launched edge list and of what the first
    region left in the product array.
-/
import proofs.«156354_j35347580846828_1_alg».proof.Defs
import proofs.«156354_j35347580846828_1_alg».proof.Proof.Gen.KernelIdeal.Frame
import proofs.«156354_j35347580846828_1_alg».proof.Proof.RefRead
import Idealize.ShloMosaic.Lib.StableHlo.Run

set_option maxRecDepth 16384

noncomputable section

namespace Cert.KernelIdeal.HostChain

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- The aggregated messages as a function of the edge list and of the dense product: row `e` of the product gathered at
    the source index, scaled by the edge weight, added into the row of the target index. -/
def agg (edges : (⟨S2x800000, .i32⟩ : BufTy).Contents (Elt F)) (xw : (⟨S50000x64, .f32⟩ : BufTy).Contents (Elt F)) :
    (⟨S50000x64, .f32⟩ : BufTy).Contents (Elt F) :=
  Host.scatterAdd Cert.ReferenceIdeal.scatter_S50000x64_S850000x1_S850000x64_1_0_0_1
    (Cert.ReferenceIdeal.ReadP.val_main_v44 (F := F)) (Cert.ReferenceIdeal.ReadP.val_main_v45 (F := F) edges)
    (mulf (Cert.ReferenceIdeal.ReadP.val_main_v42 (F := F) edges)
      (Host.gather Cert.ReferenceIdeal.gather_S50000x64_S850000x1_S850000x64_1_0_n_n_0_1_164 xw
        (Cert.ReferenceIdeal.ReadP.val_main_v40 (F := F) edges)))

/-- The reference's aggregated-messages stage is `agg` of the edge list and of its product stage. -/
theorem ref_agg (x0 : (⟨Cert.ReferenceIdeal.S50000x64, .f32⟩ : BufTy).Contents (Elt F))
    (x1 : (⟨Cert.ReferenceIdeal.S2x800000, .i32⟩ : BufTy).Contents (Elt F))
    (x2 : (⟨Cert.ReferenceIdeal.S64x64, .f32⟩ : BufTy).Contents (Elt F)) :
    Cert.ReferenceIdeal.ReadP.val_main_v46 (F := F) x0 x1 x2
      = agg (F := F) x1 (Cert.ReferenceIdeal.ReadP.val_main_v33 (F := F) x0 x2) := rfl

variable (m : (ℓ : Loc nD τ sig) → Buf (Elt F) ℓ) (ρ : Dev nD → PrngReg)

/-! ## Buffers the host stretch between the regions does not write -/

/-- The stretch between the regions writes none of the buffers bound before the first region. -/
theorem W7_keeps (c : Dev nD) (b : Ref sig .tc)
    (hb : ∀ op ∈ (hostOps1 : List (HloOp τ sig (Elt F))), (Proc.devRef .tc b : DevRef τ sig) ∉ op.writes) :
    W7 m ρ c (Proc.devRef .tc b) = W6 m ρ c (Proc.devRef .tc b) :=
  StableHlo.after_of_forall_not_mem (b := Proc.devRef .tc b) _ _ hb

/-- No operation of the stretch between the regions writes the reference at hand: decided operation by operation. -/
macro "stretch1_keeps" : tactic => `(tactic| (
  refine List.forall_iff_forall_mem.mp ?_
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## What the second region finds in the arguments -/

/-- The second region finds `x` as launched. -/
theorem V7_arg0 (c : Dev nD) : V7 m ρ c main_arg0 = m ((c : Thread nD τ).loc main_arg0) :=
  ((W8_arr m ρ c 0).trans (((dat1 (V7 m ρ) c).arrAt_in 0 rfl _).trans (A_eq1 (V7 m ρ) c 0))).symm.trans (W8_main_arg0 m ρ c)

/-- The second region finds the bias as launched. -/
theorem V7_arg3 (c : Dev nD) : V7 m ρ c main_arg3 = m ((c : Thread nD τ).loc main_arg3) :=
  ((W8_arr m ρ c 2).trans (((dat1 (V7 m ρ) c).arrAt_in 2 rfl _).trans (A_eq1 (V7 m ρ) c 2))).symm.trans (W8_main_arg3 m ρ c)

/-- The second region finds the scale as launched. -/
theorem V7_arg4 (c : Dev nD) : V7 m ρ c main_arg4 = m ((c : Thread nD τ).loc main_arg4) :=
  ((W8_arr m ρ c 3).trans (((dat1 (V7 m ρ) c).arrAt_in 3 rfl _).trans (A_eq1 (V7 m ρ) c 3))).symm.trans (W8_main_arg4 m ρ c)

/-- The second region finds the shift as launched. -/
theorem V7_arg5 (c : Dev nD) : V7 m ρ c main_arg5 = m ((c : Thread nD τ).loc main_arg5) :=
  ((W8_arr m ρ c 4).trans (((dat1 (V7 m ρ) c).arrAt_in 4 rfl _).trans (A_eq1 (V7 m ρ) c 4))).symm.trans (W8_main_arg5 m ρ c)

/-! ## What the first region finds in its operands -/

/-- The first region finds `x` as launched: the stretch between the regions and the first region leave it in place. -/
theorem V5_arg0 (c : Dev nD) : V5 m ρ c main_arg0 = m ((c : Thread nD τ).loc main_arg0) :=
  (((W7_keeps m ρ c main_arg0 (by stretch1_keeps)).trans
    ((W6_arr m ρ c 0).trans (((dat0 (V5 m ρ) c).arrAt_in 0 rfl _).trans (A_eq0 (V5 m ρ) c 0)))).symm).trans (V7_arg0 m ρ c)

/-- The first region finds the weight as launched. -/
theorem V5_arg2 (c : Dev nD) : V5 m ρ c main_arg2 = m ((c : Thread nD τ).loc main_arg2) :=
  ((((W8_of_ne m ρ c main_arg2 (by decide)).trans (W7_keeps m ρ c main_arg2 (by stretch1_keeps))).trans
    ((W6_arr m ρ c 1).trans (((dat0 (V5 m ρ) c).arrAt_in 1 rfl _).trans (A_eq0 (V5 m ρ) c 1)))).symm).trans (W8_main_arg2 m ρ c)

/-! ## The index arrays and the edge weights, computed before the first region -/

/-- The five stretches before the first region, as one fold from the launch memory. -/
theorem W5_unfold (c : Dev nD) (b : DevRef τ sig) :
    W5 m ρ c b = StableHlo.after hostOps0_4 (StableHlo.after hostOps0_3 (StableHlo.after hostOps0_2
      (StableHlo.after hostOps0_1 (StableHlo.after hostOps0 (W0 m ρ c))))) b := rfl

/-- The source indices (the first row of the edge list, then the self loops) are the reference's stage. -/
theorem W5_v3 (c : Dev nD) :
    (W5 m ρ c (Proc.devRef .tc main_v3) : (⟨S850000, .i32⟩ : BufTy).Contents (Elt F))
      = Cert.ReferenceIdeal.ReadP.val_main_v3 (F := F) (m ((c : Thread nD τ).loc main_arg1)) := by
  rw [W5_unfold]
  simp only [hostOps0, hostOps0_1, hostOps0_2, hostOps0_3, hostOps0_4]
  after_results_simp
  rfl

/-- The target indices (the second row of the edge list, then the self loops) are the reference's stage. -/
theorem W5_v6 (c : Dev nD) :
    (W5 m ρ c (Proc.devRef .tc main_v6) : (⟨S850000, .i32⟩ : BufTy).Contents (Elt F))
      = Cert.ReferenceIdeal.ReadP.val_main_v6 (F := F) (m ((c : Thread nD τ).loc main_arg1)) := by
  rw [W5_unfold]
  simp only [hostOps0, hostOps0_1, hostOps0_2, hostOps0_3, hostOps0_4]
  after_results_simp
  rfl

/-- The edge weights (the product of the two end points' inverse square-root degrees) are the reference's stage. -/
theorem W5_v32 (c : Dev nD) :
    (W5 m ρ c (Proc.devRef .tc main_v32) : (⟨S850000, .f32⟩ : BufTy).Contents (Elt F))
      = Cert.ReferenceIdeal.ReadP.val_main_v32 (F := F) (m ((c : Thread nD τ).loc main_arg1)) := by
  rw [W5_unfold]
  simp only [hostOps0, hostOps0_1, hostOps0_2, hostOps0_3, hostOps0_4]
  after_results_simp
  rfl

/-! ## What the second region finds in its second operand -/

/-- The aggregated messages the second region finds: `agg` of the launched edge list and of what the first region left
    in the product array. -/
theorem V7_v46 (c : Dev nD) :
    (V7 m ρ c main_v46 : (⟨S50000x64, .f32⟩ : BufTy).Contents (Elt F))
      = agg (F := F) (m ((c : Thread nD τ).loc main_arg1)) (V6 m ρ c main_v33) := by
  show StableHlo.after hostOps1 (W6 m ρ c) (Proc.devRef .tc main_v46) = _
  simp only [hostOps1]
  after_results_simp
  rw [W6_of_ne m ρ c main_v3 (by decide), W6_of_ne m ρ c main_v6 (by decide), W6_of_ne m ρ c main_v32 (by decide),
    W5_v3 m ρ c, W5_v6 m ρ c, W5_v32 m ρ c]
  rfl

end Cert.KernelIdeal.HostChain

end
-- ==== Proof.RefValue.lean ====
/-
  The reference's side of the graph-convolution layer, read index by index over the extended reals.

  * The reference's dense product: at (r, j) its contraction is ∑ k, x[r, k] · w[k, j], which is matProd x w.
  * The reference's result: with z its aggregated-messages array (kept as one opaque array), the row at r is
    h k = x[r, k] + (z[r, k] + b[k]); the mean is μ = (0 + ∑ h) / 64 = (∑ h) / 64; the centred value is h k - μ
    (computed twice, from two broadcasts of the same mean); the variance is σ² = (0 + ∑ (h - μ)²) / 64; the scale is
    rsqrt (σ² + ε); and the result at (r, j) is max ((h j - μ) · rsqrt (σ² + ε) · g[j] + be[j]) 0.  That is
    normRelu of the row, i.e. skipNormR x z b g be at (r, j).
-/
import proofs.«156354_j35347580846828_1_alg».proof.Defs
import proofs.«156354_j35347580846828_1_alg».proof.Proof.RefRun
import proofs.«156354_j35347580846828_1_alg».proof.Proof.RefRead
import proofs.«156354_j35347580846828_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.ReadP

/-! ## The dense product -/

/-- The left operand of the contraction at (r, j), term k, is read at (r, k). -/
theorem lidx33 (r : Fin 50000) (j k : Fin 64) : lidx_main_v33 (ix2 r j) k = ix2 r k :=
  funext fun a => Fin.ext (by match a with | ⟨0, _⟩ => rfl | ⟨1, _⟩ => rfl)

/-- The right operand of the contraction at (r, j), term k, is read at (k, j). -/
theorem ridx33 (r : Fin 50000) (j k : Fin 64) : ridx_main_v33 (ix2 r j) k = ix2 k j :=
  funext fun a => Fin.ext (by match a with | ⟨0, _⟩ => rfl | ⟨1, _⟩ => rfl)

/-- The dense product at (r, j), with the coordinates named. -/
theorem matProd_ix2 {n : Nat} (x : Cert.GcnNorm.Mat n 64) (w : Cert.GcnNorm.Mat 64 64) (r : Fin n) (j : Fin 64) :
    Cert.GcnNorm.matProd x w (ix2 r j) = ∑ k : Fin 64, x (ix2 r k) * w (ix2 k j) := rfl

/-- The reference's `dot_general` is the dense product. -/
theorem prod_eq (x0 : (⟨S50000x64, .f32⟩ : BufTy).Contents (Elt Ideal)) (x2 : (⟨S64x64, .f32⟩ : BufTy).Contents (Elt Ideal)) :
    val_main_v33 (F := Ideal) x0 x2 = Cert.GcnNorm.matProd x0 x2 := by
  funext i
  obtain ⟨r, j, rfl⟩ : ∃ (r : Fin 50000) (j : Fin 64), i = ix2 r j := ⟨i 0, i 1, eq_ix2 i⟩
  rw [val_main_v33_apply, matProd_ix2]
  refine Finset.sum_congr rfl fun k _ => ?_
  rw [lidx33, ridx33]

/-! ## The normalised row -/

section Row

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 x4 x5 : (⟨S64, .f32⟩ : BufTy).Contents (Elt Ideal))

/-- The bias, broadcast over the rows, at (r, k) is b[k]. -/
theorem idx47 (r : Fin 50000) (k : Fin 64) : idx_main_v47 (idx_main_v48 (ix2 r k)) = ix1 k :=
  funext fun a => Fin.ext (by match a with | ⟨0, _⟩ => rfl)

/-- The row: h k = x[r, k] + (z[r, k] + b[k]). -/
theorem v50_at (r : Fin 50000) (k : Fin 64) :
    val_main_v50 (F := Ideal) x0 x1 x2 x3 (ix2 r k)
      = x0 (ix2 r k) + (val_main_v46 (F := Ideal) x0 x1 x2 (ix2 r k) + x3 (ix1 k)) := by
  rw [val_main_v50_apply, val_main_v49_apply, val_main_v48_apply, val_main_v47_apply, idx47]
  generalize val_main_v46 (F := Ideal) x0 x1 x2 = z
  simp only [Ideal.addf_def]

/-- A row sum at row r, term k, reads the summand at (r, k). -/
theorem idx51 (r : Fin 50000) (c : Fin 1) (k : Fin 64) : idx_main_v51 (idx_main_v52 (ix2 r c)) k = ix2 r k :=
  funext fun a => Fin.ext (by match a with | ⟨0, _⟩ => rfl | ⟨1, _⟩ => rfl)

/-- The mean of the row: (0 + ∑ h) / 64 = (∑ h) / 64. -/
theorem v54_at (r : Fin 50000) (c : Fin 1) :
    val_main_v54 (F := Ideal) x0 x1 x2 x3 (ix2 r c)
      = Cert.GcnNorm.mean64 (fun k => val_main_v50 (F := Ideal) x0 x1 x2 x3 (ix2 r k)) := by
  rw [val_main_v54_apply, val_main_v52_apply, val_main_v51_apply, val_main_v53_apply, val_main_cst_12_apply,
    val_main_cst_11_apply]
  generalize val_main_v50 (F := Ideal) x0 x1 x2 x3 = h
  simp only [idx51]
  rw [Ideal.hostDivf_def, Ideal.ofBits_def, Ideal.ofBits_def, Ideal.ofBits_zero_f32, zero_add]
  rfl

/-- The mean, broadcast over the columns, at (r, k) is the mean of row r. -/
theorem idx55 (r : Fin 50000) (k : Fin 64) : idx_main_v55 (ix2 r k) = ix2 r (0 : Fin 1) :=
  funext fun a => Fin.ext (by match a with | ⟨0, _⟩ => rfl | ⟨1, _⟩ => rfl)

/-- The second broadcast of the mean reads the same element. -/
theorem idx62 (r : Fin 50000) (k : Fin 64) : idx_main_v62 (ix2 r k) = ix2 r (0 : Fin 1) :=
  funext fun a => Fin.ext (by match a with | ⟨0, _⟩ => rfl | ⟨1, _⟩ => rfl)

/-- The centred value h k - μ (the copy the variance is taken of). -/
theorem v56_at (r : Fin 50000) (k : Fin 64) :
    val_main_v56 (F := Ideal) x0 x1 x2 x3 (ix2 r k)
      = val_main_v50 (F := Ideal) x0 x1 x2 x3 (ix2 r k) - val_main_v54 (F := Ideal) x0 x1 x2 x3 (ix2 r (0 : Fin 1)) := by
  rw [val_main_v56_apply, val_main_v55_apply, idx55]
  exact Ideal.subf_def _ _

/-- The centred value h k - μ (the copy that is scaled). -/
theorem v63_at (r : Fin 50000) (k : Fin 64) :
    val_main_v63 (F := Ideal) x0 x1 x2 x3 (ix2 r k)
      = val_main_v50 (F := Ideal) x0 x1 x2 x3 (ix2 r k) - val_main_v54 (F := Ideal) x0 x1 x2 x3 (ix2 r (0 : Fin 1)) := by
  rw [val_main_v63_apply, val_main_v62_apply, idx62]
  exact Ideal.subf_def _ _

/-- The second row sum at row r, term k, reads the summand at (r, k). -/
theorem idx58 (r : Fin 50000) (c : Fin 1) (k : Fin 64) : idx_main_v58 (idx_main_v59 (ix2 r c)) k = ix2 r k :=
  funext fun a => Fin.ext (by match a with | ⟨0, _⟩ => rfl | ⟨1, _⟩ => rfl)

/-- The variance of the row: (0 + ∑ (h - μ)²) / 64 = (∑ (h - μ)²) / 64. -/
theorem v61_at (r : Fin 50000) (c : Fin 1) :
    val_main_v61 (F := Ideal) x0 x1 x2 x3 (ix2 r c)
      = Cert.GcnNorm.mean64 (fun k => val_main_v56 (F := Ideal) x0 x1 x2 x3 (ix2 r k)
          * val_main_v56 (F := Ideal) x0 x1 x2 x3 (ix2 r k)) := by
  rw [val_main_v61_apply, val_main_v59_apply, val_main_v58_apply, val_main_v60_apply, val_main_cst_14_apply,
    val_main_cst_13_apply]
  simp only [idx58, val_main_v57_apply]
  generalize val_main_v56 (F := Ideal) x0 x1 x2 x3 = d
  rw [Ideal.hostDivf_def, Ideal.ofBits_def, Ideal.ofBits_def, Ideal.ofBits_zero_f32, zero_add]
  rfl

/-- The scale: rsqrt (σ² + ε). -/
theorem v66_at (r : Fin 50000) (c : Fin 1) :
    val_main_v66 (F := Ideal) x0 x1 x2 x3 (ix2 r c)
      = Ideal.rsqrt (val_main_v61 (F := Ideal) x0 x1 x2 x3 (ix2 r c) + Ideal.ofBits .f32 0x3727C5AC#32) := by
  rw [val_main_v66_apply, val_main_v65_apply, val_main_v64_apply, val_main_cst_15_apply]
  generalize val_main_v61 (F := Ideal) x0 x1 x2 x3 = v
  rfl

/-- The scale, broadcast over the columns, at (r, j) is the scale of row r. -/
theorem idx67 (r : Fin 50000) (j : Fin 64) : idx_main_v67 (ix2 r j) = ix2 r (0 : Fin 1) :=
  funext fun a => Fin.ext (by match a with | ⟨0, _⟩ => rfl | ⟨1, _⟩ => rfl)

/-- The weight of the normalisation, broadcast over the rows, at (r, j) is g[j]. -/
theorem idx69 (r : Fin 50000) (j : Fin 64) : idx_main_v69 (idx_main_v70 (ix2 r j)) = ix1 j :=
  funext fun a => Fin.ext (by match a with | ⟨0, _⟩ => rfl)

/-- The offset of the normalisation, broadcast over the rows, at (r, j) is be[j]. -/
theorem idx72 (r : Fin 50000) (j : Fin 64) : idx_main_v72 (idx_main_v73 (ix2 r j)) = ix1 j :=
  funext fun a => Fin.ext (by match a with | ⟨0, _⟩ => rfl)

/-- The result at (r, j): max ((h j - μ) · scale · g[j] + be[j]) 0. -/
theorem v75_at (r : Fin 50000) (j : Fin 64) :
    val_main_v75 (F := Ideal) x0 x1 x2 x3 x4 x5 (ix2 r j)
      = max (val_main_v63 (F := Ideal) x0 x1 x2 x3 (ix2 r j) * val_main_v66 (F := Ideal) x0 x1 x2 x3 (ix2 r (0 : Fin 1))
              * x4 (ix1 j) + x5 (ix1 j))
          (Ideal.ofBits .f32 0x00000000#32) := by
  rw [val_main_v75_apply, val_main_v74_apply, val_main_v71_apply, val_main_v68_apply, val_main_v67_apply, idx67,
    val_main_v70_apply, val_main_v69_apply, idx69, val_main_v73_apply, val_main_v72_apply, idx72,
    val_main_call2_v0_apply, val_main_call2_cst_apply]
  generalize val_main_v63 (F := Ideal) x0 x1 x2 x3 = d
  generalize val_main_v66 (F := Ideal) x0 x1 x2 x3 = s
  rfl

end Row

/-- skipNormR at (r, j), with the coordinates named. -/
theorem skipNormR_ix2 {n : Nat} (x z : Cert.GcnNorm.Mat n 64) (b g be : Cert.GcnNorm.Row 64) (r : Fin n) (j : Fin 64) :
    Cert.GcnNorm.skipNormR x z b g be (ix2 r j)
      = Cert.GcnNorm.normRelu (fun k => x (ix2 r k) + (z (ix2 r k) + b (ix1 k))) (fun k => g (ix1 k))
          (fun k => be (ix1 k)) j := rfl

/-- The reference's result is residual + bias + LayerNorm + ReLU, the row formed as `x + (z + b)`, of the
    arguments and of its aggregated-messages stage `main_v46` (which is not opened). -/
theorem result_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 x4 x5 : (⟨S64, .f32⟩ : BufTy).Contents (Elt Ideal)) :
    val_main_v75 (F := Ideal) x0 x1 x2 x3 x4 x5
      = Cert.GcnNorm.skipNormR x0 (val_main_v46 (F := Ideal) x0 x1 x2) x3 x4 x5 := by
  funext i
  obtain ⟨r, j, rfl⟩ : ∃ (r : Fin 50000) (j : Fin 64), i = ix2 r j := ⟨i 0, i 1, eq_ix2 i⟩
  rw [v75_at, v63_at, v66_at, v61_at, v54_at, skipNormR_ix2]
  simp only [v56_at, v54_at, v50_at]
  generalize val_main_v46 (F := Ideal) x0 x1 x2 = z
  rfl

end Cert.ReferenceIdeal.RefValue

end
-- ==== Proof.lean ====
/-
  Kernel and reference compute one function over the extended reals.

  Both programs are a graph-convolution layer with a residual connection, LayerNorm and ReLU.  From the integer edge
  list they compute, by the same host operations, source and target indices and edge weights.  The kernel forms the
  dense product `x · W` block by block of 5000 rows (a matrix product into a zero accumulator, the change of float
  format being the identity on extended reals); the reference as one contraction: both are `matProd x W`.  Both then
  gather, scale and scatter-add the product's rows (`agg edges (x · W)`, never opened).  The kernel normalises the
  rows of `(x + z) + b`, the reference those of `x + (z + b)`: addition of extended reals is associative, so both
  results are `skipNormL x (agg edges (matProd x W)) b gamma beta`.  No step uses that the inputs are finite.

  The frames of the two kernel programs are the generated ones; the reference's frame is its run with the result
  dropped; the idealization rewrote nothing, so `preserves` is trivial.
-/
import proofs.«156354_j35347580846828_1_alg».proof.Defs
import proofs.«156354_j35347580846828_1_alg».proof.Proof.Gen.Kernel
import proofs.«156354_j35347580846828_1_alg».proof.Proof.Gen.Kernel.Frame
import proofs.«156354_j35347580846828_1_alg».proof.Proof.Gen.KernelIdeal
import proofs.«156354_j35347580846828_1_alg».proof.Proof.Gen.KernelIdeal.Frame
import proofs.«156354_j35347580846828_1_alg».proof.Proof.Gen.ReferenceIdeal
import proofs.«156354_j35347580846828_1_alg».proof.Proof.Gen.Pre_finite_inputs
import proofs.«156354_j35347580846828_1_alg».proof.Proof.Spec
import proofs.«156354_j35347580846828_1_alg».proof.Proof.KernelRun
import proofs.«156354_j35347580846828_1_alg».proof.Proof.Region0
import proofs.«156354_j35347580846828_1_alg».proof.Proof.Region1
import proofs.«156354_j35347580846828_1_alg».proof.Proof.HostChain
import proofs.«156354_j35347580846828_1_alg».proof.Proof.RefRun
import proofs.«156354_j35347580846828_1_alg».proof.Proof.RefRead
import proofs.«156354_j35347580846828_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The kernel's result array -/

section KernelValue

open Cert.KernelIdeal Cert.KernelIdeal.Gen Cert.KernelIdeal.HostChain

variable (m : (ℓ : Loc nD τ sig) → Buf (Elt Ideal) ℓ) (ρ : Dev nD → PrngReg)

/-- The common result: residual, bias, LayerNorm and ReLU of `x` and the aggregated rows of `x · W`. -/
def result (c : Dev nD) : Buf (Elt Ideal) ((c.tc : Thread nD τ).loc main_v47) :=
  Cert.GcnNorm.skipNormL (m ((c : Thread nD τ).loc main_arg0) : S50000x64.Idx → EReal)
    (agg (F := Ideal) (m ((c : Thread nD τ).loc main_arg1))
      (Cert.GcnNorm.matProd (m ((c : Thread nD τ).loc main_arg0) : S50000x64.Idx → EReal) (m ((c : Thread nD τ).loc main_arg2) : S64x64.Idx → EReal)))
    (m ((c : Thread nD τ).loc main_arg3) : S64.Idx → EReal) (m ((c : Thread nD τ).loc main_arg4) : S64.Idx → EReal)
    (m ((c : Thread nD τ).loc main_arg5) : S64.Idx → EReal)

/-- What the first region leaves in the product array: the dense product of the launched `x` and weight. -/
theorem product_eq (c : Dev nD) :
    (V6 m ρ c main_v33 : S50000x64.Idx → EReal)
      = Cert.GcnNorm.matProd (m ((c : Thread nD τ).loc main_arg0) : S50000x64.Idx → EReal) (m ((c : Thread nD τ).loc main_arg2) : S64x64.Idx → EReal) := by
  refine (W6_arr m ρ c 2).trans ?_
  refine (Cert.KernelIdeal.Region0.final0 (V5 m ρ) c).trans ?_
  rw [V5_arg0 m ρ c, V5_arg2 m ρ c]

/-- The last boundary's contents of the result array are the common result. -/
theorem kernel_result (c : Dev nD) : W8 m ρ c (Proc.devRef .tc main_v47) = result m c := by
  refine (W8_arr m ρ c 5).trans ?_
  refine (Cert.KernelIdeal.Region1.final1 (V7 m ρ) c).trans ?_
  rw [V7_arg0 m ρ c, V7_arg3 m ρ c, V7_arg4 m ρ c, V7_arg5 m ρ c, V7_v46 m ρ c, product_eq m ρ c]
  rfl

/-- The kernel's run: the result array ends at the common result, the arguments as launched. -/
theorem kernel_run : θ_run defs (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_result m ρ c), (h c).2⟩)
    (Cert.KernelIdeal.GenP.run_main (F := Ideal) m ρ)

end KernelValue

/-! ## The reference's result array -/

section ReferenceValue

open Cert.ReferenceIdeal Cert.ReferenceIdeal.ReadP

/-- The reference's result stage, as the same function of its arguments. -/
theorem reference_result (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 x4 x5 : (⟨S64, .f32⟩ : BufTy).Contents (Elt Ideal)) :
    val_main_v75 (F := Ideal) x0 x1 x2 x3 x4 x5
      = Cert.GcnNorm.skipNormL x0 (Cert.KernelIdeal.HostChain.agg (F := Ideal) x1 (Cert.GcnNorm.matProd x0 x2)) x3 x4 x5 := by
  rw [Cert.ReferenceIdeal.RefValue.result_eq, Cert.KernelIdeal.HostChain.ref_agg, Cert.ReferenceIdeal.RefValue.prod_eq,
    Cert.GcnNorm.skipNormL_eq_skipNormR]

end ReferenceValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the common result. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v75_eq, reference_result,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
